-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S128 : Shape := ⟨1, ![128]⟩
abbrev S128x128 : Shape := ⟨2, ![128, 128]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S64x4096x128 .f32) (main_arg1 : FVec F S64x4096x128 .f32) (main_arg2 : FVec F S64x4096x128 .f32) (main_arg3 : FVec F S128 .f32) (main_arg4 : FVec F S128x128 .f32) (main_arg5 : FVec F S128x128 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  let main_v4 : FVec F S64x4096x128 .f32 := Host.absf main_arg1
  let main_cst_0 : FVec F S_ .f32 := constant S_ .f32 0x7F800000#32
  let main_v5 : FVec F S64x4096x128 .f32 := broadcastInDim S64x4096x128 ![] bcast_S_S64x4096x128 main_cst_0
  let main_v6 : IVec S64x4096x128 1 := cmpf .olt main_v4 main_v5
  let main_c_1 : IVec S_ 1 := constantI S_ 1 1#1
  let main_v7 : IVec S_ 1 := (fun x v => Host.reduce IntOp.andi x v reducesTo_S64x4096x128_S_d0_1_2 h_S_) main_v6 main_c_1
  let main_v8 : IVec S_ 1 := andi main_v3 main_v7
  let main_v9 : FVec F S64x4096x128 .f32 := Host.absf main_arg2
  let main_cst_2 : FVec F S_ .f32 := constant S_ .f32 0x7F800000#32
  let main_v10 : FVec F S64x4096x128 .f32 := broadcastInDim S64x4096x128 ![] bcast_S_S64x4096x128 main_cst_2
  let main_v11 : IVec S64x4096x128 1 := cmpf .olt main_v9 main_v10
  let main_c_3 : IVec S_ 1 := constantI S_ 1 1#1
  let main_v12 : IVec S_ 1 := (fun x v => Host.reduce IntOp.andi x v reducesTo_S64x4096x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S64x4096x128 : Shape := ⟨3, ![64, 4096, 128]⟩
abbrev S128 : Shape := ⟨1, ![128]⟩
abbrev S128x128 : Shape := ⟨2, ![128, 128]⟩
abbrev S262144x128 : Shape := ⟨2, ![262144, 128]⟩
abbrev S4096x128 : Shape := ⟨2, ![4096, 128]⟩
abbrev S4096 : Shape := ⟨1, ![4096]⟩
abbrev S4096x1 : Shape := ⟨2, ![4096, 1]⟩
abbrev S1x128 : Shape := ⟨2, ![1, 128]⟩

abbrev nBuf : Space → Nat
  | .hbm => 15
  | .vmem => 12
  | .smem => 0
  | _ => 0

abbrev bufTy : (tb : Table) → Fin (tcTables nBuf tb) → BufTy
  | .hbm, ⟨0, _⟩ => ⟨S64x4096x128, .f32⟩
  | .hbm, ⟨1, _⟩ => ⟨S64x4096x128, .f32⟩
  | .hbm, ⟨2, _⟩ => ⟨S64x4096x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S262144x128, .f32⟩
  | .hbm, ⟨7, _⟩ => ⟨S262144x128, .f32⟩
  | .hbm, ⟨8, _⟩ => ⟨S262144x128, .f32⟩
  | .hbm, ⟨9, _⟩ => ⟨S128x128, .f32⟩
  | .hbm, ⟨10, _⟩ => ⟨S128x128, .f32⟩
  | .hbm, ⟨11, _⟩ => ⟨S262144x128, .f32⟩
  | .hbm, ⟨12, _⟩ => ⟨S262144x128, .f32⟩
  | .hbm, ⟨13, _⟩ => ⟨S64x4096x128, .f32⟩
  | .hbm, ⟨14, _⟩ => ⟨S64x4096x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S128, .f32⟩
  | .local _ .vmem, ⟨7, _⟩ => ⟨S128x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64x4096x128_S262144x128 : S64x4096x128.ShapeCasts S262144x128
  transposes_S128x128_S128x128_1_0 : S128x128.Transposes [1, 0] S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  broadcasts_S4096x1_S4096x128 : S4096x1.Broadcasts S4096x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S262144x128_S64x4096x128 : S262144x128.ShapeCasts S64x4096x128
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S262144x128.size a
  hwx0_5 : ∀ i : grid0.Coords, EltTy.bits .f32 = 32 ∨ (Rect.block (s := S262144x128) S4096x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S262144x128.size a
  hwx0_6 : ∀ i : grid0.Coords, EltTy.bits .f32 = 32 ∨ (Rect.block (s := S262144x128) S4096x128.size (cc0_transform_6 i) (hinb0_6 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S4096x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x4096x128 : Shape := ⟨3, ![64, 4096, 128]⟩
abbrev S128 : Shape := ⟨1, ![128]⟩
abbrev S128x128 : Shape := ⟨2, ![128, 128]⟩
abbrev S_ : Shape := ⟨0, ![]⟩
abbrev S64x4096 : Shape := ⟨2, ![64, 4096]⟩
abbrev S64x4096x1 : Shape := ⟨3, ![64, 4096, 1]⟩
abbrev S1x1x128 : Shape := ⟨3, ![1, 1, 128]⟩

abbrev nBuf : Space → Nat
  | .hbm => 26
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S64x4096x128, .f32⟩
  | .hbm, ⟨2, _⟩ => ⟨S64x4096x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S64x4096x128, .f32⟩
  | .hbm, ⟨7, _⟩ => ⟨S64x4096x128, .f32⟩
  | .hbm, ⟨8, _⟩ => ⟨S_, .f32⟩
  | .hbm, ⟨9, _⟩ => ⟨S64x4096, .f32⟩
  | .hbm, ⟨10, _⟩ => ⟨S64x4096x1, .f32⟩
  | .hbm, ⟨11, _⟩ => ⟨S_, .f32⟩
  | .hbm, ⟨12, _⟩ => ⟨S64x4096x1, .f32⟩
  | .hbm, ⟨13, _⟩ => ⟨S64x4096x1, .f32⟩
  | .hbm, ⟨14, _⟩ => ⟨S_, .f32⟩
  | .hbm, ⟨15, _⟩ => ⟨S64x4096x1, .f32⟩
  | .hbm, ⟨16, _⟩ => ⟨S64x4096x1, .f32⟩
  | .hbm, ⟨17, _⟩ => ⟨S64x4096x1, .f32⟩
  | .hbm, ⟨18, _⟩ => ⟨S64x4096x128, .f32⟩
  | .hbm, ⟨19, _⟩ => ⟨S64x4096x128, .f32⟩
  | .hbm, ⟨20, _⟩ => ⟨S1x1x128, .f32⟩
  | .hbm, ⟨21, _⟩ => ⟨S64x4096x128, .f32⟩
  | .hbm, ⟨22, _⟩ => ⟨S64x4096x128, .f32⟩
  | .hbm, ⟨23, _⟩ => ⟨S128x128, .f32⟩
  | .hbm, ⟨24, _⟩ => ⟨S64x4096x128, .f32⟩
  | .hbm, ⟨25, _⟩ => ⟨S64x4096x128, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  reducesTo_S64x4096x128_S64x4096_d2 : S64x4096x128.ReducesTo [2] S64x4096
  h_S_ : 0 < S_.numel
  bcast_S64x4096_S64x4096x1_0_1 : S64x4096.BroadcastsInDim S64x4096x1 (![0, 1] : Fin 2 → Fin S64x4096x1.rank)
  bcast_S_S64x4096x1 : S_.BroadcastsInDim S64x4096x1 (![] : Fin 0 → Fin S64x4096x1.rank)
  bcast_S64x4096x1_S64x4096x128_0_1_2 : S64x4096x1.BroadcastsInDim S64x4096x128 (![0, 1, 2] : Fin 3 → Fin S64x4096x128.rank)
  bcast_S128_S1x1x128_2 : S128.BroadcastsInDim S1x1x128 (![2] : Fin 1 → Fin S1x1x128.rank)
  bcast_S1x1x128_S64x4096x128_0_1_2 : S1x1x128.BroadcastsInDim S64x4096x128 (![0, 1, 2] : Fin 3 → Fin S64x4096x128.rank)
  dot_S64x4096x128_S128x128_S64x4096x128_2_1_01_0_n_n_wf : DotDims.WF S64x4096x128 S128x128 S64x4096x128 [2] [1] [0, 1] [0] [] []

variable [Facts₀]

def dot_S64x4096x128_S128x128_S64x4096x128_2_1_01_0_n_n : DotDims S64x4096x128 S128x128 S64x4096x128 where
  lhsContracting := [2]
  rhsContracting := [1]
  lhsNonContracting := [0, 1]
  rhsNonContracting := [0]
  lhsBatch := []
  rhsBatch := []
  wf := dot_S64x4096x128_S128x128_S64x4096x128_2_1_01_0_n_n_wf

class Facts : Prop extends Facts₀ where

variable [Facts]
-- ==== Proof.TokenNorm.lean ====
/-
  The mathematics of one token. A token is a row of 128 channels. Two rows `x` and `a` are added channel by
  channel; the sum is scaled by the reciprocal root of (its mean square plus a small constant) and by a per-channel
  gain `g`; the scaled row is then projected onto 128 output channels by a 128 × 128 weight `c` (output channel
  first, input channel second): output `o` is the sum over the input channels `h` of the scaled row at `h` times
  `c o h`. Everything is read on the extended reals, every operation exact: the quotient by 128 is the extended
  reals' division by the value of the single-precision pattern of 128, the small constant is the value of its own
  pattern, and the reciprocal root is the extended reals' one. Both programs of the certificate compute exactly
  these terms, the kernel row block by row block, the reference on the whole array; the only rearrangement between
  them is where a row and a weight entry are stored, and the only law used is that a sum started from zero is the sum.
-/
import Idealize.ShloMosaic.PureOps.Ideal
import Idealize.ShloMosaic.Lib.ValueIdx

noncomputable section

open scoped BigOperators

namespace Cert.TokenNorm

open Idealize.ShloMosaic Idealize.ShloMosaic.ValueIdx

/-- The divisor of the mean: the value of the single-precision pattern of 128. -/
def width : EReal := Ideal.ofBits .f32 0x43000000#32
/-- The constant added under the root: the value of its single-precision pattern (about 1e-5). -/
def eps : EReal := Ideal.ofBits .f32 0x3727C5AC#32

/-- The two rows added, channel by channel. -/
def rowSum (x a : Fin 128 → EReal) (h : Fin 128) : EReal := x h + a h

/-- The reciprocal root of the row's mean square plus the constant. -/
def rowInvRms (x a : Fin 128 → EReal) : EReal :=
  Ideal.rsqrt (Ideal.div (∑ h : Fin 128, rowSum x a h * rowSum x a h) width + eps)

/-- The added row, normalised and scaled by the gain. -/
def rowNormed (x a g : Fin 128 → EReal) (h : Fin 128) : EReal := rowSum x a h * rowInvRms x a * g h

/-- The normalised row projected on output channel `o` by the weight `c` (`c o h`: output channel, input channel). -/
def rowProject (x a g : Fin 128 → EReal) (c : Fin 128 → Fin 128 → EReal) (o : Fin 128) : EReal :=
  ∑ h : Fin 128, rowNormed x a g h * c o h

/-! ## The two results over the program's arrays: 64 × 4096 tokens of 128 channels -/

/-- The arguments' shape: batch, sequence position, channel. -/
abbrev Tokens : Shape := ⟨3, ![64, 4096, 128]⟩
/-- The same tokens as 262144 rows. -/
abbrev Rows : Shape := ⟨2, ![262144, 128]⟩
abbrev Gain : Shape := ⟨1, ![128]⟩
abbrev Weight : Shape := ⟨2, ![128, 128]⟩

/-- Row `(b, s)` of a token array. -/
def tokenRow (r : Tokens.Idx → EReal) (b : Fin 64) (s : Fin 4096) : Fin 128 → EReal := fun h => r (ix3 b s h)
/-- Row `ρ` of a row array. -/
def flatRow (X : Rows.Idx → EReal) (ρ : Fin 262144) : Fin 128 → EReal := fun h => X (ix2 ρ h)
/-- The gain as a function of the channel. -/
def gainOf (g : Gain.Idx → EReal) : Fin 128 → EReal := fun h => g (ix1 h)

/-- THE FIRST RESULT, on the token array: every token's normalised sum projected by the sum of the two weights. -/
def projected (r a : Tokens.Idx → EReal) (g : Gain.Idx → EReal) (w1 w2 : Weight.Idx → EReal) : Tokens.Idx → EReal :=
  fun i => rowProject (tokenRow r (i 0) (i 1)) (tokenRow a (i 0) (i 1)) (gainOf g)
    (fun o h => w1 (ix2 o h) + w2 (ix2 o h)) (i 2)

/-- THE SECOND RESULT, on the token array: the sum of the three streams. -/
def carried (r a mo : Tokens.Idx → EReal) : Tokens.Idx → EReal := fun i => r i + a i + mo i

/-- The first result on the row array, the weight stored input channel first (`C (h, o)`). -/
def projectedRows (X A : Rows.Idx → EReal) (g : Gain.Idx → EReal) (C : Weight.Idx → EReal) : Rows.Idx → EReal :=
  fun j => rowProject (flatRow X (j 0)) (flatRow A (j 0)) (gainOf g) (fun o h => C (ix2 h o)) (j 1)

/-- The second result on the row array. -/
def carriedRows (X A M : Rows.Idx → EReal) : Rows.Idx → EReal := fun j => X j + A j + M j

end Cert.TokenNorm

end
-- ==== Proof.ReferenceTokens.lean ====
/-
  The reference, one token at a time. Its first result at token `(b, s)` and output channel `o` is the sum over the
  input channels of the normalised added row times the sum of the two weights at `(o, h)`: the token's projection.
  Its row sum of squares starts from the value of the zero pattern, which is the extended reals' zero; adding it
  is the one law used here. Its second result is the sum of the three streams.
-/
import proofs.«122974_j60361470378694_1_alg».proof.Proof.Gen.ReferenceIdeal.Read
import proofs.«122974_j60361470378694_1_alg».proof.Proof.TokenNorm

noncomputable section

open scoped BigOperators

namespace Cert.TokenNorm.Reference

open Idealize.ShloMosaic Idealize.ShloMosaic.ValueIdx Cert.ReferenceIdeal Cert.ReferenceIdeal.Read Cert.TokenNorm

/-- The reference's normalised array at token `(b, s)`, channel `h`, is the token's normalised row there. -/
theorem normed_eq (x0 x1 : Tokens.Idx → EReal) (x3 : Gain.Idx → EReal) (b : Fin 64) (s : Fin 4096) (h : Fin 128) :
    val_main_v13 (F := Ideal) x0 x1 x3 (ix3 b s h)
      = rowNormed (tokenRow x0 b s) (tokenRow x1 b s) (gainOf x3) h := by
  have e2 : ∀ k : Fin 128, idx_main_v2 (idx_main_v3 (idx_main_v9 (ix3 b s h))) k = ix3 b s k := fun k =>
    funext fun a => Fin.ext (by match a with | ⟨0, _⟩ => rfl | ⟨1, _⟩ => rfl | ⟨2, _⟩ => rfl)
  have e11 : idx_main_v11 (idx_main_v12 (ix3 b s h)) = ix1 h :=
    funext fun a => Fin.ext (by match a with | ⟨0, _⟩ => rfl)
  rw [val_main_v13_apply, val_main_v10_apply, val_main_v12_apply, val_main_v11_apply, val_main_v0_apply,
    val_main_v9_apply, val_main_v8_apply, val_main_v7_apply, val_main_v5_apply, val_main_v6_apply,
    val_main_cst_1_apply, val_main_v3_apply, val_main_v4_apply, val_main_cst_0_apply, val_main_v2_apply,
    val_main_cst_apply]
  simp only [e2, e11, val_main_v1_apply, val_main_v0_apply, Ideal.addf_def, Ideal.mulf_def, Ideal.hostDivf_def,
    Ideal.hostUnary_rsqrt_def, Ideal.ofBits_def, Ideal.ofBits_zero_f32, zero_add]
  rfl

/-- The reference's first result is every token's projection. -/
theorem projected_eq (x0 x1 : Tokens.Idx → EReal) (x3 : Gain.Idx → EReal) (x4 x5 : Weight.Idx → EReal) :
    val_main_v15 (F := Ideal) x0 x1 x3 x4 x5 = projected x0 x1 x3 x4 x5 := by
  funext i
  obtain ⟨b, s, o, rfl⟩ : ∃ (b : Fin 64) (s : Fin 4096) (o : Fin 128), i = ix3 b s o := ⟨i 0, i 1, i 2, eq_ix3 i⟩
  rw [val_main_v15_apply]
  show _ = rowProject (tokenRow x0 b s) (tokenRow x1 b s) (gainOf x3) (fun o h => x4 (ix2 o h) + x5 (ix2 o h)) o
  unfold rowProject
  refine Finset.sum_congr rfl fun k _ => ?_
  have el : lidx_main_v15 (ix3 b s o) k = ix3 b s k :=
    funext fun a => Fin.ext (by match a with | ⟨0, _⟩ => rfl | ⟨1, _⟩ => rfl | ⟨2, _⟩ => rfl)
  have er : ridx_main_v15 (ix3 b s o) k = ix2 o k :=
    funext fun a => Fin.ext (by match a with | ⟨0, _⟩ => rfl | ⟨1, _⟩ => rfl)
  rw [el, er, normed_eq]
  rfl

/-- The reference's second result is the sum of the three streams. -/
theorem carried_eq (x0 x1 x2 : Tokens.Idx → EReal) : val_main_v16 (F := Ideal) x0 x1 x2 = carried x0 x1 x2 := rfl

end Cert.TokenNorm.Reference

end
-- ==== Proof.BlockRow.lean ====
/-
  One block of the kernel, one row at a time. A block holds 4096 rows of 128 channels of each stream, the whole gain
  and the whole weight (stored input channel first). Row `p` of the block's first result is the projection of the
  block's row `p`; row `p` of its second result is the sum of the three streams' rows.
-/
import proofs.«122974_j60361470378694_1_alg».proof.Proof.Gen.KernelIdeal.Skeleton
import proofs.«122974_j60361470378694_1_alg».proof.Proof.TokenNorm
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.TokenNorm.Block

open Idealize.ShloMosaic Idealize.ShloMosaic.ValueIdx Cert.KernelIdeal Cert.KernelIdeal.Gen Cert.TokenNorm

/-- The block's two streams added, entry by entry. -/
theorem added_apply (x0 x1 : FVec Ideal S4096x128 .f32) (j : S4096x128.Idx) :
    k0_pay1 (F := Ideal) x0 x1 j = x0 j + x1 j := by
  unfold k0_pay1
  rw [shapeCast_self, shapeCast_self]
  rfl

/-- A row's sum over the channels, kept as a column: at `(p, 0)` it is the sum of row `p`. -/
theorem rowTotal_apply (y : FVec Ideal S4096x128 .f32) (p : Fin 4096) (u : Fin 1) :
    shapeCast S4096x1 (multiReduction (F := Ideal) .add [1] S4096 y 0x00000000#32 reduces_S4096x128_S4096 (.inl rfl) rfl)
        shapeCasts_S4096_S4096x1 (ix2 p u)
      = ∑ k : Fin 128, y (ix2 p k) := by
  refine (shapeCast_apply _ shapeCasts_S4096_S4096x1 (ix2 p u) (ix1 p) ?_).trans ?_
  · have hu : u.val = 0 := by omega
    rw [Shape.rowMajor_val_two, Shape.rowMajor_val_one]
    show p.val = p.val * 1 + u.val
    omega
  · refine (Ideal.multiReduction_add_single y 0x00000000#32 reduces_S4096x128_S4096 (.inl rfl) rfl (ix1 p)).trans ?_
    refine Finset.sum_congr rfl fun k _ => congrArg y ?_
    funext a
    apply Fin.ext
    match a with
    | ⟨0, _⟩ => rfl
    | ⟨1, _⟩ => rfl

/-- The reciprocal root of a row's mean plus the constant, kept as a column: at `(p, 0)` it is that of row `p`'s sum. -/
theorem invRoot_apply (y : FVec Ideal S4096x128 .f32) (p : Fin 4096) :
    rsqrt (addf (divf (shapeCast S4096x1 (multiReduction (F := Ideal) .add [1] S4096 y 0x00000000#32 reduces_S4096x128_S4096 (.inl rfl) rfl)
          shapeCasts_S4096_S4096x1) (broadcast S4096x1 (Scalar.ofBits (F := Ideal) .f32 0x43000000#32)))
        (broadcast S4096x1 (Scalar.ofBits (F := Ideal) .f32 0x3727C5AC#32))) (ix2 p (0 : Fin 1))
      = Ideal.rsqrt (Ideal.div (∑ k : Fin 128, y (ix2 p k)) width + eps) := by
  show Ideal.rsqrt (Ideal.div (shapeCast S4096x1 _ shapeCasts_S4096_S4096x1 (ix2 p (0 : Fin 1))) _ + _) = _
  rw [rowTotal_apply]
  rfl

/-- A column spread over the channels reads the column's entry of the row. -/
theorem spreadColumn_apply (z : FVec Ideal S4096x1 .f32) (p : Fin 4096) (k : Fin 128) :
    broadcastTo S4096x128 z broadcasts_S4096x1_S4096x128 (ix2 p k) = z (ix2 p (0 : Fin 1)) := by
  refine broadcastTo_apply z broadcasts_S4096x1_S4096x128 (ix2 p k) (ix2 p (0 : Fin 1)) fun ax => ?_
  match ax with
  | ⟨0, _⟩ =>
    show p.val = if (4096 : Nat) = 1 then 0 else p.val
    rw [if_neg (by decide)]
  | ⟨1, _⟩ =>
    show 0 = if (1 : Nat) = 1 then 0 else k.val
    rw [if_pos rfl]

/-- The gain spread over the rows reads the gain of the channel. -/
theorem spreadGain_apply (g : FVec Ideal S128 .f32) (p : Fin 4096) (k : Fin 128) :
    broadcastTo S4096x128 (shapeCast S1x128 g shapeCasts_S128_S1x128) broadcasts_S1x128_S4096x128 (ix2 p k) = g (ix1 k) :=
  (broadcastTo_1b_ab_apply _ broadcasts_S1x128_S4096x128 p k).trans (shapeCast_a_1a_apply g shapeCasts_S128_S1x128 0 k)

/-! ## The block's matrix product, entry by entry -/

theorem productLeft_row (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem productLeft_channel (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem productRight_channel (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem productRight_column (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product of a block of rows with the weight, started from zero: at `(p, o)` the sum over the input channels
    `k` of the row's entry at `k` times the weight at `(k, o)`. -/
theorem product_apply (L : FVec Ideal S4096x128 .f32) (R : FVec Ideal S128x128 .f32) (p : Fin 4096) (o : Fin 128) :
    matmul dot_S4096x128_S128x128_S4096x128_1_0_0_1_n_n none L R (constant (F := Ideal) S4096x128 .f32 0x00000000#32) (ix2 p o)
      = ∑ k : Fin 128, L (ix2 p k) * R (ix2 k o) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p o) ((ValueIdx.contrEquiv1 dot_S4096x128_S128x128_S4096x128_1_0_0_1_n_n 128 rfl rfl).symm k) = ix2 p k := funext fun a => Fin.ext (by
    match a with
    | ⟨0, _⟩ => exact productLeft_row _ _
    | ⟨1, _⟩ => exact (productLeft_channel _ _).trans hk)
  have er : dot_S4096x128_S128x128_S4096x128_1_0_0_1_n_n.rhsIdx (ix2 p o) ((ValueIdx.contrEquiv1 dot_S4096x128_S128x128_S4096x128_1_0_0_1_n_n 128 rfl rfl).symm k) = ix2 k o := funext fun a => Fin.ext (by
    match a with
    | ⟨0, _⟩ => exact (productRight_channel _ _).trans hk
    | ⟨1, _⟩ => exact productRight_column _ _)
  rw [el, er]

/-! ## The block's two results, entry by entry -/

/-- Row `p` of a block. -/
def blockRow (x : FVec Ideal S4096x128 .f32) (p : Fin 4096) : Fin 128 → EReal := fun h => x (ix2 p h)

/-- The block's first result at `(p, o)` is the projection of its row `p` on output channel `o`. -/
theorem projected_apply (x0 x1 : FVec Ideal S4096x128 .f32) (x3 : FVec Ideal S128 .f32) (x4 : FVec Ideal S128x128 .f32)
    (p : Fin 4096) (o : Fin 128) :
    k0_pay2 (F := Ideal) x0 x1 x3 x4 (ix2 p o)
      = rowProject (blockRow x0 p) (blockRow x1 p) (gainOf x3) (fun o h => x4 (ix2 h o)) o := by
  unfold k0_pay2
  refine (product_apply _ _ p o).trans ?_
  unfold rowProject
  refine Finset.sum_congr rfl fun k _ => ?_
  rw [shapeCast_self]
  refine congrArg (· * x4 (ix2 k o)) ?_
  rw [mulf_apply, mulf_apply, spreadGain_apply, spreadColumn_apply, added_apply, invRoot_apply]
  simp only [mulf_apply, added_apply]
  rfl

/-- The block's second result is the sum of the three streams, entry by entry. -/
theorem carried_apply (x0 x1 x2 : FVec Ideal S4096x128 .f32) (j : S4096x128.Idx) :
    k0_pay3 (F := Ideal) x0 x1 x2 j = x0 j + x1 j + x2 j := by
  unfold k0_pay3
  rw [shapeCast_self]
  show k0_pay1 (F := Ideal) x0 x1 j + x2 j = _
  rw [added_apply]

/-! ## A block inside the row array -/

/-- If row `p` of the block's two streams is row `ρ` of two row arrays, and the block's gain and weight are the
    arrays' gain and weight, the block's first result at `(p, o)` is the row array's first result at `(ρ, o)`. -/
theorem projected_at_row (X A : Rows.Idx → EReal) (g : Gain.Idx → EReal) (C : Weight.Idx → EReal)
    (x0 x1 : FVec Ideal S4096x128 .f32) (x3 : FVec Ideal S128 .f32) (x4 : FVec Ideal S128x128 .f32)
    (p : Fin 4096) (o : Fin 128) (ρ : Fin 262144)
    (h0 : ∀ k : Fin 128, x0 (ix2 p k) = X (ix2 ρ k)) (h1 : ∀ k : Fin 128, x1 (ix2 p k) = A (ix2 ρ k))
    (h3 : ∀ k : Fin 128, x3 (ix1 k) = g (ix1 k)) (h4 : ∀ k : Fin 128, x4 (ix2 k o) = C (ix2 k o)) :
    k0_pay2 (F := Ideal) x0 x1 x3 x4 (ix2 p o) = projectedRows X A g C (ix2 ρ o) := by
  rw [projected_apply]
  show _ = rowProject (flatRow X ρ) (flatRow A ρ) (gainOf g) (fun o h => C (ix2 h o)) o
  have e0 : blockRow x0 p = flatRow X ρ := funext h0
  have e1 : blockRow x1 p = flatRow A ρ := funext h1
  have e3 : gainOf x3 = gainOf g := funext h3
  rw [e0, e1, e3]
  unfold rowProject
  exact Finset.sum_congr rfl fun k _ => congrArg (_ * ·) (h4 k)

/-- If entry `(p, o)` of the block's three streams is entry `(ρ, o)` of three row arrays, the block's second result
    there is the row arrays' second result. -/
theorem carried_at_row (X A M : Rows.Idx → EReal) (x0 x1 x2 : FVec Ideal S4096x128 .f32)
    (p : Fin 4096) (o : Fin 128) (ρ : Fin 262144)
    (h0 : x0 (ix2 p o) = X (ix2 ρ o)) (h1 : x1 (ix2 p o) = A (ix2 ρ o)) (h2 : x2 (ix2 p o) = M (ix2 ρ o)) :
    k0_pay3 (F := Ideal) x0 x1 x2 (ix2 p o) = carriedRows X A M (ix2 ρ o) := by
  rw [carried_apply, h0, h1, h2]
  rfl

end Cert.TokenNorm.Block

end
-- ==== Proof.KernelRows.lean ====
/-
  From the kernel's blocks to its two row arrays. The grid has 64 points; point `t` reads rows `4096 t … 4096 t + 4095`
  of the three streams (as 262144 rows), the whole gain and the whole weight, and writes the same rows of the two
  results. So each result array, after the run, is the row-array result of the arrays the region found.
-/
import proofs.«122974_j60361470378694_1_alg».proof.Proof.Gen.KernelIdeal.Frame
import proofs.«122974_j60361470378694_1_alg».proof.Proof.BlockRow

noncomputable section

open Idealize.ShloMosaic Idealize.ShloMosaic.TcCoe Idealize.SL.Sem
open Idealize.ShloMosaic.Pipeline (Dat)

namespace Cert.TokenNorm.Kernel

open Idealize.ShloMosaic.ValueIdx Cert.KernelIdeal Cert.KernelIdeal.Gen Cert.TokenNorm

variable (m : (ℓ : Loc nD τ sig) → Buf (Elt Ideal) ℓ) (ρ : Dev nD → PrngReg)

theorem offsets2 : (![0, 0] : Fin 2 → Nat) = fun _ => 0 := funext fun a => by fin_cases a <;> rfl
theorem offsets1 : (![0] : Fin 1 → Nat) = fun _ => 0 := funext fun a => by fin_cases a <;> rfl

/-- The block indices at point `t`: the row-tiled windows are at row block `t`, the gain and the weight at their one block. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The first stream's block at point `t`, entry `x`, is the row array's entry `k` when `k` is `x` moved down `4096 t` rows. -/
theorem stream0_apply (c : Dev nD) (t : Fin cfg0.N) (x : S4096x128.Idx) (k : S262144x128.Idx)
    (hk0 : (k 0).val = t.val * 4096 + (x 0).val) (hk1 : (k 1).val = (x 1).val) :
    (iblk m c 0 t : Vec Ideal S4096x128 .f32) x = (V m c main_v0 : S262144x128.Idx → Elt Ideal .f32) k := by
  obtain ⟨e0, e1, -⟩ := blockIndex t
  unfold iblk
  rw [View.read_apply]
  show V m c main_v0 _ = V m c main_v0 _
  congr 1
  funext a
  apply Fin.ext
  match a with
  | ⟨0, _⟩ => show win0_0.index t 0 * 4096 + 1 * (x 0).val = (k 0).val; rw [e0, hk0]; omega
  | ⟨1, _⟩ => show win0_0.index t 1 * 128 + 1 * (x 1).val = (k 1).val; rw [e1, hk1]; omega

/-- The same for the second stream. -/
theorem stream1_apply (c : Dev nD) (t : Fin cfg0.N) (x : S4096x128.Idx) (k : S262144x128.Idx)
    (hk0 : (k 0).val = t.val * 4096 + (x 0).val) (hk1 : (k 1).val = (x 1).val) :
    (iblk m c 1 t : Vec Ideal S4096x128 .f32) x = (V m c main_v1 : S262144x128.Idx → Elt Ideal .f32) k := by
  obtain ⟨-, -, e0, e1, -⟩ := blockIndex t
  unfold iblk
  rw [View.read_apply]
  show V m c main_v1 _ = V m c main_v1 _
  congr 1
  funext a
  apply Fin.ext
  match a with
  | ⟨0, _⟩ => show win0_1.index t 0 * 4096 + 1 * (x 0).val = (k 0).val; rw [e0, hk0]; omega
  | ⟨1, _⟩ => show win0_1.index t 1 * 128 + 1 * (x 1).val = (k 1).val; rw [e1, hk1]; omega

/-- The same for the third stream. -/
theorem stream2_apply (c : Dev nD) (t : Fin cfg0.N) (x : S4096x128.Idx) (k : S262144x128.Idx)
    (hk0 : (k 0).val = t.val * 4096 + (x 0).val) (hk1 : (k 1).val = (x 1).val) :
    (iblk m c 2 t : Vec Ideal S4096x128 .f32) x = (V m c main_v2 : S262144x128.Idx → Elt Ideal .f32) k := by
  obtain ⟨-, -, -, -, e0, e1, -⟩ := blockIndex t
  unfold iblk
  rw [View.read_apply]
  show V m c main_v2 _ = V m c main_v2 _
  congr 1
  funext a
  apply Fin.ext
  match a with
  | ⟨0, _⟩ => show win0_2.index t 0 * 4096 + 1 * (x 0).val = (k 0).val; rw [e0, hk0]; omega
  | ⟨1, _⟩ => show win0_2.index t 1 * 128 + 1 * (x 1).val = (k 1).val; rw [e1, hk1]; omega

/-- The gain's block at every point is the whole gain. -/
theorem gain_apply (c : Dev nD) (t : Fin cfg0.N) (x : S128.Idx) :
    (iblk m c 3 t : Vec Ideal S128 .f32) x = (V m c main_arg3 : S128.Idx → Elt Ideal .f32) x := by
  obtain ⟨-, -, -, -, -, -, e0, -⟩ := blockIndex t
  unfold iblk
  rw [View.read_apply]
  show V m c main_arg3 _ = V m c main_arg3 _
  congr 1
  funext a
  apply Fin.ext
  match a with
  | ⟨0, _⟩ => show win0_3.index t 0 * 128 + 1 * (x 0).val = (x 0).val; rw [e0]; omega

/-- The weight's block at every point is the whole weight. -/
theorem weight_apply (c : Dev nD) (t : Fin cfg0.N) (x : S128x128.Idx) :
    (iblk m c 4 t : Vec Ideal S128x128 .f32) x = (V m c main_v4 : S128x128.Idx → Elt Ideal .f32) x := by
  obtain ⟨-, -, -, -, -, -, -, e0, e1, -⟩ := blockIndex t
  unfold iblk
  rw [View.read_apply]
  show V m c main_v4 _ = V m c main_v4 _
  congr 1
  funext a
  apply Fin.ext
  match a with
  | ⟨0, _⟩ => show win0_4.index t 0 * 128 + 1 * (x 0).val = (x 0).val; rw [e0]; omega
  | ⟨1, _⟩ => show win0_4.index t 1 * 128 + 1 * (x 1).val = (x 1).val; rw [e1]; omega

/-- WHAT POINT `t` WRITES BACK to the first result is block `t` of the row-array projection of the arrays the region found. -/
theorem projected_flushed (c : Dev nD) (t : Fin cfg0.N) :
    (dats m 0 c).flushed 5 t = ((cfg0.win 5).blk t).view.read (Elt Ideal)
      (projectedRows (V m c main_v0) (V m c main_v1) (V m c main_arg3) (V m c main_v4)) := by
  show (cfg0.win 5).cut (grid0.coords t) ((dats m 0 c).after 5 t) = _
  rw [after0_5]
  unfold out0_5
  rw [View.canon_unit_zero offsets2]
  simp only [View.ld_unit_zero (S := S4096x128) offsets2, View.ld_unit_zero (S := S128) offsets1, View.ld_unit_zero (S := S128x128) offsets2]
  obtain ⟨-, -, -, -, -, -, -, -, -, e0, e1, -⟩ := blockIndex t
  have hN : cfg0.N = 64 := N_0
  have ht : t.val < 64 := hN ▸ t.isLt
  funext j
  have hj0 : (j 0).val < 4096 := (j 0).isLt
  have hj1 : (j 1).val < 128 := (j 1).isLt
  have hx : (cfg0.win 5).xinj (grid0.coords t) j = ix2 (⟨(j 0).val, hj0⟩ : Fin 4096) (⟨(j 1).val, hj1⟩ : Fin 128) :=
    funext fun a => by match a with | ⟨0, _⟩ => rfl | ⟨1, _⟩ => rfl
  show k0_pay2 (F := Ideal) _ _ _ _ ((cfg0.win 5).xinj (grid0.coords t) j) = _
  rw [hx, View.read_apply]
  refine (Block.projected_at_row (V m c main_v0) (V m c main_v1) (V m c main_arg3) (V m c main_v4)
      (iblk m c 0 t) (iblk m c 1 t) (iblk m c 3 t) (iblk m c 4 t) ⟨(j 0).val, hj0⟩ ⟨(j 1).val, hj1⟩
      ⟨t.val * 4096 + (j 0).val, by omega⟩
      (fun k => stream0_apply m c t _ _ rfl rfl) (fun k => stream1_apply m c t _ _ rfl rfl)
      (fun k => gain_apply m c t _) (fun k => weight_apply m c t _)).trans ?_
  refine congrArg (projectedRows (V m c main_v0) (V m c main_v1) (V m c main_arg3) (V m c main_v4)) ?_
  funext a
  apply Fin.ext
  match a with
  | ⟨0, _⟩ => show t.val * 4096 + (j 0).val = win0_5.index t 0 * 4096 + 1 * (j 0).val; rw [e0]; omega
  | ⟨1, _⟩ => show (j 1).val = win0_5.index t 1 * 128 + 1 * (j 1).val; rw [e1]; omega

/-- WHAT POINT `t` WRITES BACK to the second result is block `t` of the row-array sum of the three streams the region found. -/
theorem carried_flushed (c : Dev nD) (t : Fin cfg0.N) :
    (dats m 0 c).flushed 6 t = ((cfg0.win 6).blk t).view.read (Elt Ideal)
      (carriedRows (V m c main_v0) (V m c main_v1) (V m c main_v2)) := by
  show (cfg0.win 6).cut (grid0.coords t) ((dats m 0 c).after 6 t) = _
  rw [after0_6]
  unfold out0_6
  rw [View.canon_unit_zero offsets2]
  simp only [View.ld_unit_zero (S := S4096x128) offsets2]
  obtain ⟨-, -, -, -, -, -, -, -, -, -, -, e0, e1⟩ := blockIndex t
  have hN : cfg0.N = 64 := N_0
  have ht : t.val < 64 := hN ▸ t.isLt
  funext j
  have hj0 : (j 0).val < 4096 := (j 0).isLt
  have hj1 : (j 1).val < 128 := (j 1).isLt
  have hx : (cfg0.win 6).xinj (grid0.coords t) j = ix2 (⟨(j 0).val, hj0⟩ : Fin 4096) (⟨(j 1).val, hj1⟩ : Fin 128) :=
    funext fun a => by match a with | ⟨0, _⟩ => rfl | ⟨1, _⟩ => rfl
  show k0_pay3 (F := Ideal) _ _ _ ((cfg0.win 6).xinj (grid0.coords t) j) = _
  rw [hx, View.read_apply]
  refine (Block.carried_at_row (V m c main_v0) (V m c main_v1) (V m c main_v2)
      (iblk m c 0 t) (iblk m c 1 t) (iblk m c 2 t) ⟨(j 0).val, hj0⟩ ⟨(j 1).val, hj1⟩
      ⟨t.val * 4096 + (j 0).val, by omega⟩
      (stream0_apply m c t _ _ rfl rfl) (stream1_apply m c t _ _ rfl rfl) (stream2_apply m c t _ _ rfl rfl)).trans ?_
  refine congrArg (carriedRows (V m c main_v0) (V m c main_v1) (V m c main_v2)) ?_
  funext a
  apply Fin.ext
  match a with
  | ⟨0, _⟩ => show t.val * 4096 + (j 0).val = win0_6.index t 0 * 4096 + 1 * (j 0).val; rw [e0]; omega
  | ⟨1, _⟩ => show (j 1).val = win0_6.index t 1 * 128 + 1 * (j 1).val; rw [e1]; omega

/-! ## The blocks cover the row arrays -/

/-- A row-array index is in point `t`'s block of the first result iff each coordinate is in the block's range. -/
theorem mem_projected_block (t : Fin cfg0.N) (i : S262144x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v5_0).slice (win0_5.rect t)).set ↔ _
  rw [View.set_slice_whole, Rect.mem_set_unit]
  exact Iff.rfl

/-- The same for the second result. -/
theorem mem_carried_block (t : Fin cfg0.N) (i : S262144x128.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v5_1).slice (win0_6.rect t)).set ↔ _
  rw [View.set_slice_whole, Rect.mem_set_unit]
  exact Iff.rfl

/-- Row `ρ` is written by point `ρ / 4096`. -/
theorem projected_cover (i : S262144x128.Idx) :
    ∃ t : Fin cfg0.N, (cfg0.win 5).flush t = true ∧ i ∈ ((cfg0.win 5).blk t).view.set := by
  have hi0 : (i 0).val < 262144 := (i 0).isLt
  have hi1 : (i 1).val < 128 := (i 1).isLt
  have hN : cfg0.N = 64 := N_0
  have hq : (i 0).val / 4096 < cfg0.N := by rw [hN]; omega
  obtain ⟨-, -, -, -, -, -, -, -, -, e0, e1, -⟩ := blockIndex ⟨(i 0).val / 4096, hq⟩
  refine ⟨⟨(i 0).val / 4096, hq⟩, flush0_5 _, ?_⟩
  rw [mem_projected_block]
  intro a
  match a with
  | ⟨0, _⟩ =>
    show win0_5.index ⟨(i 0).val / 4096, hq⟩ (0 : Fin 2) * 4096 ≤ (i 0).val ∧ (i 0).val < win0_5.index ⟨(i 0).val / 4096, hq⟩ (0 : Fin 2) * 4096 + 4096
    rw [e0]
    show (i 0).val / 4096 * 4096 ≤ (i 0).val ∧ (i 0).val < (i 0).val / 4096 * 4096 + 4096
    omega
  | ⟨1, _⟩ =>
    show win0_5.index ⟨(i 0).val / 4096, hq⟩ (1 : Fin 2) * 128 ≤ (i 1).val ∧ (i 1).val < win0_5.index ⟨(i 0).val / 4096, hq⟩ (1 : Fin 2) * 128 + 128
    rw [e1]
    omega

theorem carried_cover (i : S262144x128.Idx) :
    ∃ t : Fin cfg0.N, (cfg0.win 6).flush t = true ∧ i ∈ ((cfg0.win 6).blk t).view.set := by
  have hi0 : (i 0).val < 262144 := (i 0).isLt
  have hi1 : (i 1).val < 128 := (i 1).isLt
  have hN : cfg0.N = 64 := N_0
  have hq : (i 0).val / 4096 < cfg0.N := by rw [hN]; omega
  obtain ⟨-, -, -, -, -, -, -, -, -, -, -, e0, e1⟩ := blockIndex ⟨(i 0).val / 4096, hq⟩
  refine ⟨⟨(i 0).val / 4096, hq⟩, flush0_6 _, ?_⟩
  rw [mem_carried_block]
  intro a
  match a with
  | ⟨0, _⟩ =>
    show win0_6.index ⟨(i 0).val / 4096, hq⟩ (0 : Fin 2) * 4096 ≤ (i 0).val ∧ (i 0).val < win0_6.index ⟨(i 0).val / 4096, hq⟩ (0 : Fin 2) * 4096 + 4096
    rw [e0]
    show (i 0).val / 4096 * 4096 ≤ (i 0).val ∧ (i 0).val < (i 0).val / 4096 * 4096 + 4096
    omega
  | ⟨1, _⟩ =>
    show win0_6.index ⟨(i 0).val / 4096, hq⟩ (1 : Fin 2) * 128 ≤ (i 1).val ∧ (i 1).val < win0_6.index ⟨(i 0).val / 4096, hq⟩ (1 : Fin 2) * 128 + 128
    rw [e1]
    omega

/-! ## The two row arrays after the run -/

/-- The first result's row array after the run is the row-array projection of the arrays the region found. -/
theorem projected_final (c : Dev nD) :
    (dats m 0 c).arrAt 5 cfg0.N = projectedRows (V m c main_v0) (V m c main_v1) (V m c main_arg3) (V m c main_v4) :=
  (dats m 0 c).arrAt_eq_of_cover 5 _ (fun t _ => projected_flushed m c t) projected_cover

/-- The second result's row array after the run is the row-array sum of the three streams the region found. -/
theorem carried_final (c : Dev nD) :
    (dats m 0 c).arrAt 6 cfg0.N = carriedRows (V m c main_v0) (V m c main_v1) (V m c main_v2) :=
  (dats m 0 c).arrAt_eq_of_cover 6 _ (fun t _ => carried_flushed m c t) carried_cover

end Cert.TokenNorm.Kernel

end
-- ==== Proof.RowsOfTokens.lean ====
/-
  Tokens as rows. The token array `(b, s, h)` and the row array `(ρ, h)` with `ρ = 4096 b + s` hold the same numbers
  in the same order, so the row-array results of the re-laid streams, laid back as tokens, are the token-array
  results; the weight stored input channel first is the transposed sum of the two weights.
-/
import proofs.«122974_j60361470378694_1_alg».proof.Proof.TokenNorm
import Idealize.ShloMosaic.Lib.Pipeline.Value
import Idealize.ShloMosaic.Lib.ValueIdx
import Idealize.ShloMosaic.Lib.ValueLayout

noncomputable section

open scoped BigOperators

namespace Cert.TokenNorm.Relaid

open Idealize.ShloMosaic Idealize.ShloMosaic.ValueIdx Cert.TokenNorm

/-- The row of token `(b, s)`. -/
def rowOf (b : Fin 64) (s : Fin 4096) : Fin 262144 := ⟨b.val * 4096 + s.val, by have := b.isLt; have := s.isLt; omega⟩

/-- A token array re-laid as rows reads, at `(4096 b + s, h)`, the token array at `(b, s, h)`. -/
theorem rows_apply (r : Tokens.Idx → EReal) (hc : Tokens.ShapeCasts Rows) (b : Fin 64) (s : Fin 4096) (h : Fin 128) :
    shapeCast Rows r hc (ix2 (rowOf b s) h) = r (ix3 b s h) :=
  shapeCast_apply r hc (ix2 (rowOf b s) h) (ix3 b s h) (by
    rw [Shape.rowMajor_val_three, Shape.rowMajor_val_two]
    show (b.val * 4096 + s.val) * 128 + h.val = (b.val * 4096 + s.val) * 128 + h.val
    rfl)

/-- A row array re-laid as tokens reads, at `(b, s, h)`, the row array at `(4096 b + s, h)`. -/
theorem tokens_apply (Y : Rows.Idx → EReal) (hc : Rows.ShapeCasts Tokens) (b : Fin 64) (s : Fin 4096) (h : Fin 128) :
    shapeCast Tokens Y hc (ix3 b s h) = Y (ix2 (rowOf b s) h) :=
  shapeCast_apply Y hc (ix3 b s h) (ix2 (rowOf b s) h) (by
    rw [Shape.rowMajor_val_three, Shape.rowMajor_val_two]
    show (b.val * 4096 + s.val) * 128 + h.val = (b.val * 4096 + s.val) * 128 + h.val
    rfl)

/-- THE FIRST RESULT: the row-array projection of the re-laid streams with the transposed sum of the weights,
    laid back as tokens, is the token-array projection. -/
theorem projected_relaid (r a : Tokens.Idx → EReal) (g : Gain.Idx → EReal) (w1 w2 : Weight.Idx → EReal)
    (hc : Tokens.ShapeCasts Rows) (hc' : Rows.ShapeCasts Tokens) (ht : Weight.Transposes [1, 0] Weight) :
    shapeCast Tokens (projectedRows (shapeCast Rows r hc) (shapeCast Rows a hc) g
        (transpose Weight [1, 0] (fun i => w1 i + w2 i) ht)) hc'
      = projected r a g w1 w2 := by
  funext i
  obtain ⟨b, s, o, rfl⟩ : ∃ (b : Fin 64) (s : Fin 4096) (o : Fin 128), i = ix3 b s o := ⟨i 0, i 1, i 2, eq_ix3 i⟩
  rw [tokens_apply]
  show rowProject (flatRow (shapeCast Rows r hc) (rowOf b s)) (flatRow (shapeCast Rows a hc) (rowOf b s)) (gainOf g)
      (fun o h => transpose Weight [1, 0] (fun i => w1 i + w2 i) ht (ix2 h o)) o
    = rowProject (tokenRow r b s) (tokenRow a b s) (gainOf g) (fun o h => w1 (ix2 o h) + w2 (ix2 o h)) o
  have e0 : flatRow (shapeCast Rows r hc) (rowOf b s) = tokenRow r b s := funext fun h => rows_apply r hc b s h
  have e1 : flatRow (shapeCast Rows a hc) (rowOf b s) = tokenRow a b s := funext fun h => rows_apply a hc b s h
  have ew : (fun (o h : Fin 128) => transpose Weight [1, 0] (fun i => w1 i + w2 i) ht (ix2 h o))
      = fun o h => w1 (ix2 o h) + w2 (ix2 o h) :=
    funext fun o => funext fun h => transpose_ix2_apply (fun i => w1 i + w2 i) ht h o
  rw [e0, e1, ew]

/-- THE SECOND RESULT: the sum of the three re-laid streams, laid back as tokens, is the sum of the three streams. -/
theorem carried_relaid (r a mo : Tokens.Idx → EReal) (hc : Tokens.ShapeCasts Rows) (hc' : Rows.ShapeCasts Tokens) :
    shapeCast Tokens (carriedRows (shapeCast Rows r hc) (shapeCast Rows a hc) (shapeCast Rows mo hc)) hc'
      = carried r a mo := by
  funext i
  obtain ⟨b, s, o, rfl⟩ : ∃ (b : Fin 64) (s : Fin 4096) (o : Fin 128), i = ix3 b s o := ⟨i 0, i 1, i 2, eq_ix3 i⟩
  rw [tokens_apply]
  show shapeCast Rows r hc (ix2 (rowOf b s) o) + shapeCast Rows a hc (ix2 (rowOf b s) o) + shapeCast Rows mo hc (ix2 (rowOf b s) o) = _
  rw [rows_apply, rows_apply, rows_apply]
  rfl

end Cert.TokenNorm.Relaid

end
-- ==== Proof.KernelTokens.lean ====
/-
  The kernel's program around its region. Before the region the three streams are re-laid as rows and the two
  weights are added and transposed; after it the two row arrays are laid back as tokens. So the program's two
  results are the token-array projection and the token-array sum of its arguments.
-/
import proofs.«122974_j60361470378694_1_alg».proof.Proof.Gen.KernelIdeal.Frame
import proofs.«122974_j60361470378694_1_alg».proof.Proof.KernelRows
import proofs.«122974_j60361470378694_1_alg».proof.Proof.RowsOfTokens
import Idealize.ShloMosaic.Lib.StableHlo.Run

noncomputable section

open Idealize.ShloMosaic Idealize.ShloMosaic.TcCoe Idealize.SL.Sem
open Idealize.ShloMosaic.Pipeline (Dat)

namespace Cert.TokenNorm.Kernel

open Idealize.ShloMosaic.ValueIdx Cert.KernelIdeal Cert.KernelIdeal.Gen Cert.TokenNorm

variable (m : (ℓ : Loc nD τ sig) → Buf (Elt Ideal) ℓ) (ρ : Dev nD → PrngReg)

/-- The program's arguments on core `c`, at their literal types. -/
abbrev stream0 (c : Dev nD) : S64x4096x128.Idx → EReal := m ((c : Thread nD τ).loc main_arg0)
abbrev stream1 (c : Dev nD) : S64x4096x128.Idx → EReal := m ((c : Thread nD τ).loc main_arg1)
abbrev stream2 (c : Dev nD) : S64x4096x128.Idx → EReal := m ((c : Thread nD τ).loc main_arg2)
abbrev gain (c : Dev nD) : S128.Idx → EReal := m ((c : Thread nD τ).loc main_arg3)
abbrev weight1 (c : Dev nD) : S128x128.Idx → EReal := m ((c : Thread nD τ).loc main_arg4)
abbrev weight2 (c : Dev nD) : S128x128.Idx → EReal := m ((c : Thread nD τ).loc main_arg5)

/-- The first stream as the region finds it: the argument re-laid as rows. -/
theorem found_stream0 (c : Dev nD) :
    V m c main_v0 = shapeCast S262144x128 (m ((c : Thread nD τ).loc main_arg0)) shapeCasts_S64x4096x128_S262144x128 := by
  show StableHlo.after hostOps0 (fun b => m (c, b)) (Proc.devRef .tc main_v0) = _
  after_results
  rfl

/-- The second and third streams likewise. -/
theorem found_stream1 (c : Dev nD) :
    V m c main_v1 = shapeCast S262144x128 (m ((c : Thread nD τ).loc main_arg1)) shapeCasts_S64x4096x128_S262144x128 := by
  show StableHlo.after hostOps0 (fun b => m (c, b)) (Proc.devRef .tc main_v1) = _
  after_results
  rfl
theorem found_stream2 (c : Dev nD) :
    V m c main_v2 = shapeCast S262144x128 (m ((c : Thread nD τ).loc main_arg2)) shapeCasts_S64x4096x128_S262144x128 := by
  show StableHlo.after hostOps0 (fun b => m (c, b)) (Proc.devRef .tc main_v2) = _
  after_results
  rfl

/-- The weight as the region finds it: the two weights added, then transposed. -/
theorem found_weight (c : Dev nD) :
    (V m c main_v4 : S128x128.Idx → EReal)
      = transpose S128x128 [1, 0] (fun i => weight1 m c i + weight2 m c i) transposes_S128x128_S128x128_1_0 := by
  show StableHlo.after hostOps0 (fun b => m (c, b)) (Proc.devRef .tc main_v4) = _
  after_results
  rfl

/-- The first result: the first row array laid back as tokens. -/
theorem tail_projected (c : Dev nD) :
    Pipeline.afterTail₀ cfgs (dats m) 0 (V0 m) [hostOps1] c main_v6
      = shapeCast S64x4096x128 ((dats m 0 c).arrAt 5 cfg0.N) shapeCasts_S262144x128_S64x4096x128 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5_0)
      = (dats m 0 c).arrAt 5 cfg0.N :=
    Pipeline.withArrays_arr spec0 launch0.win.arr_inj c _ _ 5
  refine funext fun i => ?_
  show shapeCast S64x4096x128 (Pipeline.withArrays (cfgs 0).spec c (V0 m c) (fun w => (dats m 0 c).arrAt w (cfgs 0).N) (Proc.devRef .tc main_v5_0)) shapeCasts_S262144x128_S64x4096x128 i = _
  rw [e]

/-- The second result: the second row array laid back as tokens. -/
theorem tail_carried (c : Dev nD) :
    Pipeline.afterTail₀ cfgs (dats m) 0 (V0 m) [hostOps1] c main_v7
      = shapeCast S64x4096x128 ((dats m 0 c).arrAt 6 cfg0.N) shapeCasts_S262144x128_S64x4096x128 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v5_1)
      = (dats m 0 c).arrAt 6 cfg0.N :=
    Pipeline.withArrays_arr spec0 launch0.win.arr_inj c _ _ 6
  refine funext fun i => ?_
  show shapeCast S64x4096x128 (Pipeline.withArrays (cfgs 0).spec c (V0 m c) (fun w => (dats m 0 c).arrAt w (cfgs 0).N) (Proc.devRef .tc main_v5_1)) shapeCasts_S262144x128_S64x4096x128 i = _
  rw [e]

/-! ## The two results of the program -/

/-- The program's first result is the token-array projection of its arguments. -/
theorem result_projected (c : Dev nD) :
    Pipeline.afterTail₀ cfgs (dats m) 0 (V0 m) [hostOps1] c main_v6
      = projected (stream0 m c) (stream1 m c) (gain m c) (weight1 m c) (weight2 m c) := by
  rw [tail_projected, projected_final, found_stream0, found_stream1, found_weight, V_main_arg3]
  exact Relaid.projected_relaid (stream0 m c) (stream1 m c) (gain m c) (weight1 m c) (weight2 m c) _ _ _

/-- The program's second result is the token-array sum of its three streams. -/
theorem result_carried (c : Dev nD) :
    Pipeline.afterTail₀ cfgs (dats m) 0 (V0 m) [hostOps1] c main_v7
      = carried (stream0 m c) (stream1 m c) (stream2 m c) := by
  rw [tail_carried, carried_final, found_stream0, found_stream1, found_stream2]
  exact Relaid.carried_relaid (stream0 m c) (stream1 m c) (stream2 m c) _ _

/-- THE RUN: every weakly fair execution of the kernel's program ends with the two results at the token-array
    projection and sum of the arguments, the arguments unchanged. -/
theorem run : θ_run defs (onTc (τ := τ) (main (F := Ideal))) ⟨m, fun _ => 0, ρ⟩ fun r => ∀ c : Dev nD,
      r.2.mem ((c.tc : Thread nD τ).loc main_v6) = projected (stream0 m c) (stream1 m c) (gain m c) (weight1 m c) (weight2 m c)
      ∧ r.2.mem ((c.tc : Thread nD τ).loc main_v7) = carried (stream0 m c) (stream1 m c) (stream2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v6 (Pipeline.mem_restRefs_of main_v6 (by decide) (by decide))).trans (result_projected m c),
      ((h c).2 main_v7 (Pipeline.mem_restRefs_of main_v7 (by decide) (by decide))).trans (result_carried m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.TokenNorm.Kernel

end
-- ==== Proof.lean ====
/-
  The kernel fuses, over 64 × 4096 tokens of 128 channels: the sum of two streams; its normalisation by the
  reciprocal root of (the row's mean square plus a small constant) and by a per-channel gain; the projection of the
  normalised row by the sum of two 128 × 128 weights; and the sum of the first two streams with a third. The
  reference computes the same two results on the whole arrays.

  On the extended reals the two programs compute the same terms: the mean divides by the value of the same pattern of
  128 on both sides, the constant under the root is the same pattern, the reciprocal root is the same function, and
  the kernel's matrix product from a zero accumulator against the reference's contraction is the same sum over the
  128 input channels in the same order. What differs is where the numbers are stored: the kernel re-lays the tokens
  as 262144 rows and works on 64 blocks of 4096 rows, with the weight sum transposed; the reference keeps the three
  axes. The proof states one token's mathematics once (Proof/TokenNorm.lean), reads the reference's run as that
  mathematics on every token (Proof/ReferenceTokens.lean), reads a kernel block row by row (Proof/BlockRow.lean), pieces
  the blocks into the two row arrays (Proof/KernelRows.lean), re-lays rows as tokens (Proof/RowsOfTokens.lean) and
  reads the kernel's program around its region (Proof/KernelTokens.lean). The precondition is never opened: no law that
  fails at an infinity is used (only that adding zero changes nothing, where a sum starts from the zero pattern).

  The three frames: the two kernels' are the generated frame certificates, the reference's is its generated run
  with the results dropped. The idealisation rewrote nothing, so that conjunct is trivial.
-/
import proofs.«122974_j60361470378694_1_alg».proof.Defs
import proofs.«122974_j60361470378694_1_alg».proof.Proof.Gen.Kernel
import proofs.«122974_j60361470378694_1_alg».proof.Proof.Gen.Kernel.Skeleton
import proofs.«122974_j60361470378694_1_alg».proof.Proof.Gen.Kernel.Launch
import proofs.«122974_j60361470378694_1_alg».proof.Proof.Gen.Kernel.Points
import proofs.«122974_j60361470378694_1_alg».proof.Proof.Gen.Kernel.Frame
import proofs.«122974_j60361470378694_1_alg».proof.Proof.Gen.KernelIdeal
import proofs.«122974_j60361470378694_1_alg».proof.Proof.Gen.KernelIdeal.Skeleton
import proofs.«122974_j60361470378694_1_alg».proof.Proof.Gen.KernelIdeal.Launch
import proofs.«122974_j60361470378694_1_alg».proof.Proof.Gen.KernelIdeal.Points
import proofs.«122974_j60361470378694_1_alg».proof.Proof.Gen.KernelIdeal.Frame
import proofs.«122974_j60361470378694_1_alg».proof.Proof.Gen.ReferenceIdeal
import proofs.«122974_j60361470378694_1_alg».proof.Proof.Gen.Pre_finite_inputs
import proofs.«122974_j60361470378694_1_alg».proof.Proof.Gen.ReferenceIdeal.Run
import proofs.«122974_j60361470378694_1_alg».proof.Proof.Gen.ReferenceIdeal.Read
import proofs.«122974_j60361470378694_1_alg».proof.Proof.ReferenceTokens
import proofs.«122974_j60361470378694_1_alg».proof.Proof.KernelTokens
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- Both programs end with the token-array projection and the token-array sum of the arguments they agree on. -/
theorem algebraic : Cert.algebraic_KernelIdeal_ReferenceIdeal := by
  intro m ρ m' ρ' _ hagree
  refine ⟨fun c => Cert.TokenNorm.projected (Cert.TokenNorm.Kernel.stream0 m c) (Cert.TokenNorm.Kernel.stream1 m c)
      (Cert.TokenNorm.Kernel.gain m c) (Cert.TokenNorm.Kernel.weight1 m c) (Cert.TokenNorm.Kernel.weight2 m c),
    fun c => Cert.TokenNorm.carried (Cert.TokenNorm.Kernel.stream0 m c) (Cert.TokenNorm.Kernel.stream1 m c)
      (Cert.TokenNorm.Kernel.stream2 m c),
    Cert.TokenNorm.Kernel.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2⟩
  · rw [Cert.ReferenceIdeal.Read.val_main_v15_eq, a0, a1, a3, a4, a5]
    exact Cert.TokenNorm.Reference.projected_eq _ _ _ _ _
  · rw [Cert.ReferenceIdeal.Read.val_main_v16_eq, a0, a1, a2]
    exact Cert.TokenNorm.Reference.carried_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
